-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x3200000 : Shape := ⟨2, ![2, 3200000]⟩
abbrev S100000 : Shape := ⟨1, ![100000]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel

variable [Facts]

def fn {F : FTy → Type} [FloatOps F] (main_arg0 : FVec F S100000x256 .f32) (main_arg1 : IVec S2x3200000 32) (main_arg2 : IVec S100000 32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  main_v3
-- ==== Kernel.lean ====
abbrev S100000x256 : Shape := ⟨2, ![100000, 256]⟩
abbrev S2x3200000 : Shape := ⟨2, ![2, 3200000]⟩
abbrev S100000 : Shape := ⟨1, ![100000]⟩
abbrev S119 : Shape := ⟨1, ![119]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩
abbrev S5000x256 : Shape := ⟨2, ![5000, 256]⟩
abbrev S5000x1 : Shape := ⟨2, ![5000, 1]⟩

abbrev nBuf : Space → Nat
  | .hbm => 61
  | .vmem => 6
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S119, .f32⟩
  | .hbm, ⟨4, _⟩ => ⟨S1x3200000, .i32⟩
  | .hbm, ⟨5, _⟩ => ⟨S3200000, .i32⟩
  | .hbm, ⟨6, _⟩ => ⟨S_, .f32⟩
  | .hbm, ⟨7, _⟩ => ⟨S100000, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S_, .f32⟩
  | .hbm, ⟨17, _⟩ => ⟨S3200000, .f32⟩
  | .hbm, ⟨18, _⟩ => ⟨S100000, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .i1⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x256, .f32⟩
  | .local _ .vmem, ⟨0, _⟩ => ⟨S5000x256, .f32⟩
  | .local _ .vmem, ⟨1, _⟩ => ⟨S5000x256, .f32⟩
  | .local _ .vmem, ⟨2, _⟩ => ⟨S5000x1, .f32⟩
  | .local _ .vmem, ⟨3, _⟩ => ⟨S5000x1, .f32⟩
  | .local _ .vmem, ⟨4, _⟩ => ⟨S5000x256, .f32⟩
  | .local _ .vmem, ⟨5, _⟩ => ⟨S5000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_c_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_cst_11 : Ref sig .tc := ⟨.hbm, 46, rfl⟩
abbrev main_v25 : Ref sig .tc := ⟨.hbm, 47, rfl⟩
abbrev main_v26 : Ref sig .tc := ⟨.hbm, 48, rfl⟩
abbrev main_cst_12 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_cst_14 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  reducesTo_S100000_S_d0 : S100000.ReducesTo [0] S_
  h_S_ : 0 < S_.numel
  shapeCasts_S100000_S100000x1 : S100000.ShapeCasts S100000x1
  inb_S5000x256_S5000x256_0_0 : ∀ a, (![0, 0] : Fin 2 → Nat) a + S5000x256.size a ≤ S5000x256.size a
  h_S5000x256 : 0 < S5000x256.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x256 : S5000x1.Broadcasts S5000x256
  scatter_S100000_S3200000x1_S3200000_n_0_0_1_wf : ScatterDims.WF S100000 S3200000x1 S3200000 [] [0] [0] 1
  gather_S119_S100000x1_S100000_n_0_n_n_0_1_1_wf : GatherDims.WF S119 S100000x1 S100000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x256.size a ≤ S100000x256.size a
  hwx0_2 : ∀ i : grid0.Coords, EltTy.bits .f32 = 32 ∨ (Rect.block (s := S100000x256) S5000x256.size (cc0_transform_2 i) (hinb0_2 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x3200000 : Shape := ⟨2, ![2, 3200000]⟩
abbrev S100000 : Shape := ⟨1, ![100000]⟩
abbrev S119 : Shape := ⟨1, ![119]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S100000x1 : Shape := ⟨2, ![100000, 1]⟩

abbrev nBuf : Space → Nat
  | .hbm => 62
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x3200000, .i32⟩
  | .hbm, ⟨2, _⟩ => ⟨S100000, .i32⟩
  | .hbm, ⟨3, _⟩ => ⟨S119, .f32⟩
  | .hbm, ⟨4, _⟩ => ⟨S1x3200000, .i32⟩
  | .hbm, ⟨5, _⟩ => ⟨S3200000, .i32⟩
  | .hbm, ⟨6, _⟩ => ⟨S_, .f32⟩
  | .hbm, ⟨7, _⟩ => ⟨S100000, .f32⟩
  | .hbm, ⟨8, _⟩ => ⟨S_, .i32⟩
  | .hbm, ⟨9, _⟩ => ⟨S3200000, .i32⟩
  | .hbm, ⟨10, _⟩ => ⟨S3200000, .i1⟩
  | .hbm, ⟨11, _⟩ => ⟨S_, .i32⟩
  | .hbm, ⟨12, _⟩ => ⟨S3200000, .i32⟩
  | .hbm, ⟨13, _⟩ => ⟨S3200000, .i32⟩
  | .hbm, ⟨14, _⟩ => ⟨S3200000, .i32⟩
  | .hbm, ⟨15, _⟩ => ⟨S3200000x1, .i32⟩
  | .hbm, ⟨16, _⟩ => ⟨S_, .f32⟩
  | .hbm, ⟨17, _⟩ => ⟨S3200000, .f32⟩
  | .hbm, ⟨18, _⟩ => ⟨S100000, .f32⟩
  | .hbm, ⟨19, _⟩ => ⟨S_, .i32⟩
  | .hbm, ⟨20, _⟩ => ⟨S_, .i32⟩
  | .hbm, ⟨21, _⟩ => ⟨S_, .i32⟩
  | .hbm, ⟨22, _⟩ => ⟨S100000, .i32⟩
  | .hbm, ⟨23, _⟩ => ⟨S100000, .i32⟩
  | .hbm, ⟨24, _⟩ => ⟨S_, .i32⟩
  | .hbm, ⟨25, _⟩ => ⟨S100000, .i32⟩
  | .hbm, ⟨26, _⟩ => ⟨S100000, .i32⟩
  | .hbm, ⟨27, _⟩ => ⟨S_, .i32⟩
  | .hbm, ⟨28, _⟩ => ⟨S100000, .i32⟩
  | .hbm, ⟨29, _⟩ => ⟨S100000, .i1⟩
  | .hbm, ⟨30, _⟩ => ⟨S_, .i32⟩
  | .hbm, ⟨31, _⟩ => ⟨S100000, .i32⟩
  | .hbm, ⟨32, _⟩ => ⟨S100000, .i32⟩
  | .hbm, ⟨33, _⟩ => ⟨S100000, .i32⟩
  | .hbm, ⟨34, _⟩ => ⟨S100000x1, .i32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S100000, .f32⟩
  | .hbm, ⟨48, _⟩ => ⟨S100000, .i1⟩
  | .hbm, ⟨49, _⟩ => ⟨S_, .f32⟩
  | .hbm, ⟨50, _⟩ => ⟨S100000, .f32⟩
  | .hbm, ⟨51, _⟩ => ⟨S100000, .f32⟩
  | .hbm, ⟨52, _⟩ => ⟨S_, .f32⟩
  | .hbm, ⟨53, _⟩ => ⟨S100000, .f32⟩
  | .hbm, ⟨54, _⟩ => ⟨S100000, .f32⟩
  | .hbm, ⟨55, _⟩ => ⟨S_, .f32⟩
  | .hbm, ⟨56, _⟩ => ⟨S_, .f32⟩
  | .hbm, ⟨57, _⟩ => ⟨S100000, .f32⟩
  | .hbm, ⟨58, _⟩ => ⟨S100000, .f32⟩
  | .hbm, ⟨59, _⟩ => ⟨S100000x1, .f32⟩
  | .hbm, ⟨60, _⟩ => ⟨S100000x256, .f32⟩
  | .hbm, ⟨61, _⟩ => ⟨S100000x256, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_c_3 : Ref sig .tc := ⟨.hbm, 19, rfl⟩
abbrev main_c_4 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_v11 : Ref sig .tc := ⟨.hbm, 26, rfl⟩
abbrev main_c_5 : Ref sig .tc := ⟨.hbm, 27, rfl⟩
abbrev main_v12 : Ref sig .tc := ⟨.hbm, 28, rfl⟩
abbrev main_v13 : Ref sig .tc := ⟨.hbm, 29, rfl⟩
abbrev main_c_6 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_7 : Ref sig .tc := ⟨.hbm, 37, rfl⟩
abbrev main_v20 : Ref sig .tc := ⟨.hbm, 38, rfl⟩
abbrev main_v21 : Ref sig .tc := ⟨.hbm, 39, rfl⟩
abbrev main_cst_8 : Ref sig .tc := ⟨.hbm, 40, rfl⟩
abbrev main_v22 : Ref sig .tc := ⟨.hbm, 41, rfl⟩
abbrev main_cst_9 : Ref sig .tc := ⟨.hbm, 42, rfl⟩
abbrev main_v23 : Ref sig .tc := ⟨.hbm, 43, rfl⟩
abbrev main_cst_10 : Ref sig .tc := ⟨.hbm, 44, rfl⟩
abbrev main_v24 : Ref sig .tc := ⟨.hbm, 45, rfl⟩
abbrev main_cst_11 : Ref sig .tc := ⟨.hbm, 46, rfl⟩
abbrev main_v25 : Ref sig .tc := ⟨.hbm, 47, rfl⟩
abbrev main_v26 : Ref sig .tc := ⟨.hbm, 48, rfl⟩
abbrev main_cst_12 : Ref sig .tc := ⟨.hbm, 49, rfl⟩
abbrev main_v27 : Ref sig .tc := ⟨.hbm, 50, rfl⟩
abbrev main_v28 : Ref sig .tc := ⟨.hbm, 51, rfl⟩
abbrev main_cst_13 : Ref sig .tc := ⟨.hbm, 52, rfl⟩
abbrev main_v29 : Ref sig .tc := ⟨.hbm, 53, rfl⟩
abbrev main_v30 : Ref sig .tc := ⟨.hbm, 54, rfl⟩
abbrev main_cst_14 : Ref sig .tc := ⟨.hbm, 55, rfl⟩
abbrev main_call1_v0 : Ref sig .tc := ⟨.hbm, 56, rfl⟩
abbrev main_call1_v1 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  bcast_S_S100000 : S_.BroadcastsInDim S100000 (![] : Fin 0 → Fin S100000.rank)
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S100000_S100000x1_0 : S100000.BroadcastsInDim S100000x1 (![0] : Fin 1 → Fin S100000x1.rank)
  reducesTo_S100000_S_d0 : S100000.ReducesTo [0] S_
  h_S_ : 0 < S_.numel
  bcast_S100000x1_S100000x256_0_1 : S100000x1.BroadcastsInDim S100000x256 (![0, 1] : Fin 2 → Fin S100000x256.rank)
  scatter_S100000_S3200000x1_S3200000_n_0_0_1_wf : ScatterDims.WF S100000 S3200000x1 S3200000 [] [0] [0] 1
  gather_S119_S100000x1_S100000_n_0_n_n_0_1_1_wf : GatherDims.WF S119 S100000x1 S100000 [] [0] [] [0] [] 1 ![1]

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S119_S100000x1_S100000_n_0_n_n_0_1_1 : GatherDims S119 S100000x1 S100000 where
  offsetDims := []
  collapsedSliceDims := [0]
  operandBatchingDims := []
  startIndicesBatchingDims := []
  startIndexMap := [0]
  indexVectorDim := 1
  sliceSizes := ![1]
  wf := gather_S119_S100000x1_S100000_n_0_n_n_0_1_1_wf

class Facts : Prop extends Facts₀ where

variable [Facts]
-- ==== Proof.RefRun.lean ====
/-
  The reference's run. Its @main is a straight line of fifty-nine host operations: the bond count per atom (a scatter-add
  of ones over the edges' source indices, negative indices wrapped once), the valence looked up in a table of 119 entries at
  the clipped atom type, the violation `max (count - valence) 0`, its mean times the constraint weight (the second result),
  the per-atom scale `1 - violation / 10` where the violation is positive and `1` elsewhere, and at the end that scale made a
  column, spread along the 256 features and multiplied into the feature array (the first result). The two functions jax
  outlined (`clip`, `_where`) are listed at their call sites over the calls' own buffers, so the whole @main is ONE list
  `ops`; `main_eq` says the printed program is that list run in order, and `run_main` that every weakly fair execution
  terminates with every buffer at the list's fold over the launch contents.
-/
import proofs.«117174_j61048665145612_1_alg».proof.Proof.Gen.ReferenceIdeal
import Idealize.ShloMosaic.Lib.StableHlo.Run

noncomputable section

namespace Cert.ReferenceIdeal.HostRun

open Cert.ReferenceIdeal Cert.ReferenceIdeal.Gen Idealize.ShloMosaic Idealize.ShloMosaic.TcCoe Idealize.SL.Sem

variable {F : FTy → Type} [FloatOps F]

/-- @main's operations in order, the calls unfolded: eighteen of @main, `clip`'s six, twenty-nine of @main, `_where`'s
    three, and the last three of @main (the column, its broadcast, the product). -/
abbrev ops : List (HloOp τ sig (Elt F)) :=
  [ StableHlo.nullary main_cst (fun i => FloatOps.ofBits .f32 (lit0 (S119.rowMajor i))),
    StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.nullary main_cst_0 (constant S_ .f32 0x00000000#32),
    StableHlo.unary main_cst_0 main_v2 (broadcastInDim S100000 ![] bcast_S_S100000 : (⟨S_, .f32⟩ : BufTy).Contents (Elt F) → (⟨S100000, .f32⟩ : BufTy).Contents (Elt F)),
    StableHlo.nullary main_c (constantI S_ 32 0#32),
    StableHlo.unary main_c main_v3 (broadcastInDim S3200000 ![] bcast_S_S3200000 : (⟨S_, .i32⟩ : BufTy).Contents (Elt F) → (⟨S3200000, .i32⟩ : BufTy).Contents (Elt F)),
    StableHlo.binary main_v1 main_v3 main_v4 (cmpi .slt : (⟨S3200000, .i32⟩ : BufTy).Contents (Elt F) → (⟨S3200000, .i32⟩ : BufTy).Contents (Elt F) → (⟨S3200000, .i1⟩ : BufTy).Contents (Elt F)),
    StableHlo.nullary main_c_1 (constantI S_ 32 100000#32),
    StableHlo.unary main_c_1 main_v5 (broadcastInDim S3200000 ![] bcast_S_S3200000 : (⟨S_, .i32⟩ : BufTy).Contents (Elt F) → (⟨S3200000, .i32⟩ : BufTy).Contents (Elt F)),
    StableHlo.binary main_v1 main_v5 main_v6 (addi : (⟨S3200000, .i32⟩ : BufTy).Contents (Elt F) → (⟨S3200000, .i32⟩ : BufTy).Contents (Elt F) → (⟨S3200000, .i32⟩ : BufTy).Contents (Elt F)),
    StableHlo.ternary main_v4 main_v6 main_v1 main_v7 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v7 main_v8 (broadcastInDim S3200000x1 ![0] bcast_S3200000_S3200000x1_0 : (⟨S3200000, .i32⟩ : BufTy).Contents (Elt F) → (⟨S3200000x1, .i32⟩ : BufTy).Contents (Elt F)),
    StableHlo.nullary main_cst_2 (constant S_ .f32 0x3F800000#32),
    StableHlo.unary main_cst_2 main_v9 (broadcastInDim S3200000 ![] bcast_S_S3200000 : (⟨S_, .f32⟩ : BufTy).Contents (Elt F) → (⟨S3200000, .f32⟩ : BufTy).Contents (Elt F)),
    StableHlo.ternary main_v2 main_v8 main_v9 main_v10 ((fun x i u => Host.scatterAdd scatter_S100000_S3200000x1_S3200000_n_0_0_1 x i u) : (⟨S100000, .f32⟩ : BufTy).Contents (Elt F) → (⟨S3200000x1, .i32⟩ : BufTy).Contents (Elt F) → (⟨S3200000, .f32⟩ : BufTy).Contents (Elt F) → (⟨S100000, .f32⟩ : BufTy).Contents (Elt F)),
    StableHlo.nullary main_c_3 (constantI S_ 32 0#32),
    StableHlo.nullary main_c_4 (constantI S_ 32 118#32),
    StableHlo.TRef.unary (.of main_c_3 : StableHlo.TRef sig ⟨S_, .i32⟩) main_call0.v0 id,
    StableHlo.TRef.unary main_call0.v0 main_call0.v1 (broadcastInDim S100000 ![] bcast_S_S100000),
    StableHlo.TRef.binary main_call0.v1 (.of main_arg2 : StableHlo.TRef sig ⟨S100000, .i32⟩) main_call0.v2 maxsi,
    StableHlo.TRef.unary (.of main_c_4 : StableHlo.TRef sig ⟨S_, .i32⟩) main_call0.v3 id,
    StableHlo.TRef.unary main_call0.v3 main_call0.v4 (broadcastInDim S100000 ![] bcast_S_S100000),
    StableHlo.TRef.binary main_call0.v4 main_call0.v2 main_call0.v5 minsi,
    StableHlo.nullary main_c_5 (constantI S_ 32 0#32),
    StableHlo.unary main_c_5 main_v12 (broadcastInDim S100000 ![] bcast_S_S100000 : (⟨S_, .i32⟩ : BufTy).Contents (Elt F) → (⟨S100000, .i32⟩ : BufTy).Contents (Elt F)),
    StableHlo.binary main_v11 main_v12 main_v13 (cmpi .slt : (⟨S100000, .i32⟩ : BufTy).Contents (Elt F) → (⟨S100000, .i32⟩ : BufTy).Contents (Elt F) → (⟨S100000, .i1⟩ : BufTy).Contents (Elt F)),
    StableHlo.nullary main_c_6 (constantI S_ 32 119#32),
    StableHlo.unary main_c_6 main_v14 (broadcastInDim S100000 ![] bcast_S_S100000 : (⟨S_, .i32⟩ : BufTy).Contents (Elt F) → (⟨S100000, .i32⟩ : BufTy).Contents (Elt F)),
    StableHlo.binary main_v11 main_v14 main_v15 (addi : (⟨S100000, .i32⟩ : BufTy).Contents (Elt F) → (⟨S100000, .i32⟩ : BufTy).Contents (Elt F) → (⟨S100000, .i32⟩ : BufTy).Contents (Elt F)),
    StableHlo.ternary main_v13 main_v15 main_v11 main_v16 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    StableHlo.unary main_v16 main_v17 (broadcastInDim S100000x1 ![0] bcast_S100000_S100000x1_0 : (⟨S100000, .i32⟩ : BufTy).Contents (Elt F) → (⟨S100000x1, .i32⟩ : BufTy).Contents (Elt F)),
    StableHlo.binary main_cst main_v17 main_v18 ((fun x i => Host.gather gather_S119_S100000x1_S100000_n_0_n_n_0_1_1 x i) : (⟨S119, .f32⟩ : BufTy).Contents (Elt F) → (⟨S100000x1, .i32⟩ : BufTy).Contents (Elt F) → (⟨S100000, .f32⟩ : BufTy).Contents (Elt F)),
    StableHlo.binary main_v10 main_v18 main_v19 (subf : (⟨S100000, .f32⟩ : BufTy).Contents (Elt F) → (⟨S100000, .f32⟩ : BufTy).Contents (Elt F) → (⟨S100000, .f32⟩ : BufTy).Contents (Elt F)),
    StableHlo.nullary main_cst_7 (constant S_ .f32 0x00000000#32),
    StableHlo.unary main_cst_7 main_v20 (broadcastInDim S100000 ![] bcast_S_S100000 : (⟨S_, .f32⟩ : BufTy).Contents (Elt F) → (⟨S100000, .f32⟩ : BufTy).Contents (Elt F)),
    StableHlo.binary main_v19 main_v20 main_v21 (maximumf : (⟨S100000, .f32⟩ : BufTy).Contents (Elt F) → (⟨S100000, .f32⟩ : BufTy).Contents (Elt F) → (⟨S100000, .f32⟩ : BufTy).Contents (Elt F)),
    StableHlo.nullary main_cst_8 (constant S_ .f32 0x00000000#32),
    StableHlo.binary main_v21 main_cst_8 main_v22 ((fun x v => Host.reduceAdd x v reducesTo_S100000_S_d0 h_S_) : (⟨S100000, .f32⟩ : BufTy).Contents (Elt F) → (⟨S_, .f32⟩ : BufTy).Contents (Elt F) → (⟨S_, .f32⟩ : BufTy).Contents (Elt F)),
    StableHlo.nullary main_cst_9 (constant S_ .f32 0x47C35000#32),
    StableHlo.binary main_v22 main_cst_9 main_v23 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3D4CCCCD#32),
    StableHlo.binary main_v23 main_cst_10 main_v24 (mulf : (⟨S_, .f32⟩ : BufTy).Contents (Elt F) → (⟨S_, .f32⟩ : BufTy).Contents (Elt F) → (⟨S_, .f32⟩ : BufTy).Contents (Elt F)),
    StableHlo.nullary main_cst_11 (constant S_ .f32 0x00000000#32),
    StableHlo.unary main_cst_11 main_v25 (broadcastInDim S100000 ![] bcast_S_S100000 : (⟨S_, .f32⟩ : BufTy).Contents (Elt F) → (⟨S100000, .f32⟩ : BufTy).Contents (Elt F)),
    StableHlo.binary main_v21 main_v25 main_v26 (cmpf .ogt : (⟨S100000, .f32⟩ : BufTy).Contents (Elt F) → (⟨S100000, .f32⟩ : BufTy).Contents (Elt F) → (⟨S100000, .i1⟩ : BufTy).Contents (Elt F)),
    StableHlo.nullary main_cst_12 (constant S_ .f32 0x3DCCCCCD#32),
    StableHlo.unary main_cst_12 main_v27 (broadcastInDim S100000 ![] bcast_S_S100000 : (⟨S_, .f32⟩ : BufTy).Contents (Elt F) → (⟨S100000, .f32⟩ : BufTy).Contents (Elt F)),
    StableHlo.binary main_v21 main_v27 main_v28 (mulf : (⟨S100000, .f32⟩ : BufTy).Contents (Elt F) → (⟨S100000, .f32⟩ : BufTy).Contents (Elt F) → (⟨S100000, .f32⟩ : BufTy).Contents (Elt F)),
    StableHlo.nullary main_cst_13 (constant S_ .f32 0x3F800000#32),
    StableHlo.unary main_cst_13 main_v29 (broadcastInDim S100000 ![] bcast_S_S100000 : (⟨S_, .f32⟩ : BufTy).Contents (Elt F) → (⟨S100000, .f32⟩ : BufTy).Contents (Elt F)),
    StableHlo.binary main_v29 main_v28 main_v30 (subf : (⟨S100000, .f32⟩ : BufTy).Contents (Elt F) → (⟨S100000, .f32⟩ : BufTy).Contents (Elt F) → (⟨S100000, .f32⟩ : BufTy).Contents (Elt F)),
    StableHlo.nullary main_cst_14 (constant S_ .f32 0x3F800000#32),
    StableHlo.TRef.unary (.of main_cst_14 : StableHlo.TRef sig ⟨S_, .f32⟩) main_call1.v0 id,
    StableHlo.TRef.unary main_call1.v0 main_call1.v1 (broadcastInDim S100000 ![] bcast_S_S100000),
    StableHlo.TRef.ternary (.of main_v26 : StableHlo.TRef sig ⟨S100000, .i1⟩) (.of main_v30 : StableHlo.TRef sig ⟨S100000, .f32⟩) main_call1.v1 main_call1.v2 select,
    StableHlo.unary main_v31 main_v32 (broadcastInDim S100000x1 ![0] bcast_S100000_S100000x1_0 : (⟨S100000, .f32⟩ : BufTy).Contents (Elt F) → (⟨S100000x1, .f32⟩ : BufTy).Contents (Elt F)),
    StableHlo.unary main_v32 main_v33 (broadcastInDim S100000x256 ![0, 1] bcast_S100000x1_S100000x256_0_1 : (⟨S100000x1, .f32⟩ : BufTy).Contents (Elt F) → (⟨S100000x256, .f32⟩ : BufTy).Contents (Elt F)),
    StableHlo.binary main_arg0 main_v33 main_v34 (mulf : (⟨S100000x256, .f32⟩ : BufTy).Contents (Elt F) → (⟨S100000x256, .f32⟩ : BufTy).Contents (Elt F) → (⟨S100000x256, .f32⟩ : BufTy).Contents (Elt F)) ]

-- fifty-nine binds re-associated: the rewrite under the chain recurses once per statement
set_option maxRecDepth 2048 in
/-- The printed @main is that straight line: the two functions' bodies unfolded at their calls, both sides are one chain
    of host steps once sequencing is re-associated. -/
theorem main_eq (c : Dev nD) : main (F := F) c = StableHlo.seq ops := by
  simp only [main, fn_clip.body, fn_where.body, StableHlo.seq, bind_assoc, pure_bind]

/-- The program scopes no buffer and no semaphore (it launches no kernel). -/
theorem scopedRefs_eq : (Finset.univ.filter fun b : Ref sig .tc => b.isScoped) = ∅ := by decide
theorem scopedSems_eq : (Finset.univ.filter fun sm : SemLoc sig => sm.isScoped .tc) = ∅ := by decide

/-- Each operation touches TensorCore buffers only. -/
theorem ops_sub : (ops : List (HloOp τ sig (Elt F))).Forall fun op => op.bufs ⊆ StableHlo.tcRefs τ sig :=
  ⟨StableHlo.nullary_bufs_sub .., StableHlo.unary_bufs_sub .., StableHlo.reshape_bufs_sub .., StableHlo.nullary_bufs_sub .., StableHlo.unary_bufs_sub ..,
    StableHlo.nullary_bufs_sub .., StableHlo.unary_bufs_sub .., StableHlo.binary_bufs_sub .., StableHlo.nullary_bufs_sub .., StableHlo.unary_bufs_sub ..,
    StableHlo.binary_bufs_sub .., StableHlo.ternary_bufs_sub .., StableHlo.unary_bufs_sub .., StableHlo.nullary_bufs_sub .., StableHlo.unary_bufs_sub ..,
    StableHlo.ternary_bufs_sub .., StableHlo.nullary_bufs_sub .., StableHlo.nullary_bufs_sub .., StableHlo.unary_bufs_sub .., StableHlo.unary_bufs_sub ..,
    StableHlo.binary_bufs_sub .., StableHlo.unary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.binary_bufs_sub .., StableHlo.nullary_bufs_sub ..,
    StableHlo.unary_bufs_sub .., StableHlo.binary_bufs_sub .., StableHlo.nullary_bufs_sub .., StableHlo.binary_bufs_sub .., StableHlo.nullary_bufs_sub ..,
    StableHlo.binary_bufs_sub .., StableHlo.nullary_bufs_sub .., StableHlo.binary_bufs_sub .., StableHlo.nullary_bufs_sub .., StableHlo.unary_bufs_sub ..,
    StableHlo.binary_bufs_sub .., StableHlo.nullary_bufs_sub .., StableHlo.unary_bufs_sub .., StableHlo.binary_bufs_sub .., StableHlo.nullary_bufs_sub ..,
    StableHlo.unary_bufs_sub .., StableHlo.binary_bufs_sub .., StableHlo.nullary_bufs_sub .., StableHlo.unary_bufs_sub .., StableHlo.unary_bufs_sub ..,
    StableHlo.ternary_bufs_sub .., StableHlo.unary_bufs_sub .., StableHlo.unary_bufs_sub .., StableHlo.binary_bufs_sub ..⟩

/-- For any float values, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = StableHlo.after ops (StableHlo.launchContents m c) (Proc.devRef .tc b) :=
  StableHlo.run_seq scopedRefs_eq scopedSems_eq defs main (fun _ => ops) main_eq (fun _ => ops_sub) m ρ

end Cert.ReferenceIdeal.HostRun

end
-- ==== Proof.KernelValue.lean ====
/-
  What the idealized kernel's program leaves in its two results. The launch tiles the 100000 rows into 20 blocks of 5000
  rows, all 256 features wide; at a block the body multiplies each feature row by that row's entry of the one-column
  scale array. Every block is the same function of the array index, and the 20 blocks tile the array, so the result array
  ends holding `scaled a p`: entry `(r, f)` is `a (r, f) * p (r, 0)`, with `a` the feature argument and `p` the scale
  column as the host operations before the launch left it. The second result is a host scalar computed before the launch;
  the launch does not touch it.
-/
import proofs.«117174_j61048665145612_1_alg».proof.Proof.Gen.KernelIdeal.Value
import Idealize.ShloMosaic.Lib.ValueIdx
import Idealize.ShloMosaic.Lib.Pipeline.Value

noncomputable section

open Idealize.ShloMosaic Idealize.ShloMosaic.TcCoe Idealize.SL.Sem
open Idealize.ShloMosaic.Pipeline (Dat)

namespace Cert.KernelIdeal.ScaleValue

open Cert.KernelIdeal Cert.KernelIdeal.Gen Cert.KernelIdeal.Value

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The entry of the one-column array in the row of `i`. -/
abbrev rowOf (i : S100000x256.Idx) : S100000x1.Idx := fun a => match a with
  | ⟨0, _⟩ => ⟨(i 0).val, by have h : (i 0).val < 100000 := (i 0).isLt; show (i 0).val < 100000; omega⟩
  | ⟨1, _⟩ => ⟨0, by show 0 < 1; omega⟩

/-- Every row of `a` scaled by that row's entry of the column `p`. -/
abbrev scaled (a : S100000x256.Idx → Elt F .f32) (p : S100000x1.Idx → Elt F .f32) : S100000x256.Idx → Elt F .f32 :=
  fun i => FloatOps.mulf (a i) (p (rowOf i))

/-- What the body leaves in the output block, entry by entry, for any feature block `x0` and column block `x1`:
    the feature entry times the column's entry of the same row. -/
theorem block_apply (x0 : Vec F S5000x256 .f32) (x1 : Vec F S5000x1 .f32) (y : S5000x256.Idx) :
    out0_2 x0 x1 y = FloatOps.mulf (x0 y) (x1 (ix2_1 y)) := by
  unfold out0_2
  rw [canon2_eq]
  simp only [View.ld_unit_zero (S := S5000x256) hz, View.ld_unit_zero (S := S5000x1) hz]
  have e : ix2_0 y = y := funext fun a => Fin.ext (by match a with | ⟨0, _⟩ => rfl | ⟨1, _⟩ => rfl)
  show FloatOps.mulf (x0 (ix2_0 y)) (x1 (ix2_1 y)) = FloatOps.mulf (x0 y) (x1 (ix2_1 y))
  rw [e]

/-- The three windows move together: at point `t` each is at row block `t`, at most 19, and column block 0. -/
theorem idx_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) ≤ 19
    ∧ win0_2.index t (1 : Fin 2) = 0 :=
  (by decide +kernel : ∀ t : Fin grid0.N, _)

/-- Every row block is some point's. -/
theorem idx_onto : ∀ q : Fin 20, ∃ t : Fin cfg0.N, win0_2.index t = ![q.val, 0] :=
  (by decide +kernel : ∀ q : Fin 20, ∃ t : Fin grid0.N, win0_2.index t = ![q.val, 0])

/-- What point `t` writes back is block `t` of `scaled` of the two arrays as the launch finds them. -/
theorem flushed_eq (c : Dev nD) (t : Fin cfg0.N) :
    (dats m 0 c).flushed 2 t
      = ((cfg0.win 2).blk t).view.read (Elt F) (scaled (V m c main_arg0) (V m c main_v32)) := by
  rw [flushed2]
  obtain ⟨e0, e1, e2, e3, e4, e5⟩ := idx_facts t
  funext j
  refine (block_apply (iblk m c 0 t) (iblk m c 1 t) j).trans ?_
  show FloatOps.mulf (V m c main_arg0 (((cfg0.win 0).blk t).view.emb j)) (V m c main_v32 (((cfg0.win 1).blk t).view.emb (ix2_1 j)))
    = FloatOps.mulf (V m c main_arg0 (((cfg0.win 2).blk t).view.emb j)) (V m c main_v32 (rowOf (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * (j 1).val = win0_2.index t (1 : Fin 2) * 256 + 1 * (j 1).val; omega
  have h1 : ((cfg0.win 1).blk t).view.emb (ix2_1 j) = rowOf (((cfg0.win 2).blk t).view.emb j) := by
    funext a; apply Fin.ext
    match a with
    | ⟨0, _⟩ => show win0_1.index t (0 : Fin 2) * 5000 + 1 * (j 0).val = win0_2.index t (0 : Fin 2) * 5000 + 1 * (j 0).val; omega
    | ⟨1, _⟩ => show win0_1.index t (1 : Fin 2) * 1 + 1 * 0 = 0; omega
  rw [h0, h1]

/-- An index of the array is in point `t`'s block iff each coordinate is in the block's range on its axis. -/
theorem mem_blk (t : Fin cfg0.N) (i : S100000x256.Idx) :
    i ∈ ((cfg0.win 2).blk t).view.set ↔ ∀ a : Fin 2, win0_2.index t a * S5000x256.size a ≤ (i a).val
      ∧ (i a).val < win0_2.index t a * S5000x256.size a + S5000x256.size a := by
  show i ∈ ((View.whole main_v33).slice (win0_2.rect t)).set ↔ _
  rw [View.set_slice_whole, Rect.mem_set_unit]
  exact Iff.rfl

/-- The blocks tile the array: row `r` is in the block of point `r / 5000`. -/
theorem cover (i : S100000x256.Idx) :
    ∃ t : Fin cfg0.N, (cfg0.win 2).flush t = true ∧ i ∈ ((cfg0.win 2).blk t).view.set := by
  have hi0 : (i 0).val < 100000 := (i 0).isLt
  have hi1 : (i 1).val < 256 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 256 ≤ (i 1).val ∧ (i 1).val < win0_2.index t (1 : Fin 2) * 256 + 256; omega

/-- So the result array ends holding `scaled` of the feature argument and the column the launch found. -/
theorem final (c : Dev nD) :
    (dats m 0 c).arrAt 2 cfg0.N = scaled (m ((c : Thread nD τ).loc main_arg0)) (V m c main_v32) := by
  rw [← V_main_arg0 m c]
  exact (dats m 0 c).arrAt_eq_of_cover 2 (scaled (V m c main_arg0) (V m c main_v32)) (fun t _ => flushed_eq m c t) cover

/-- The run, read: the first result at `scaled`, the second at what the host operations before the launch left in its
    buffer, the arguments unchanged. -/
theorem run : θ_run defs (onTc (τ := τ) (main (F := F))) ⟨m, fun _ => 0, ρ⟩ fun r => ∀ c : Dev nD,
      r.2.mem ((c : Thread nD τ).loc main_v33) = scaled (m ((c : Thread nD τ).loc main_arg0)) (V m c main_v32)
      ∧ r.2.mem ((c : Thread nD τ).loc main_v24) = V m c main_v24
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(post2 m r h c).trans (final m c),
      (h c).2 main_v24 (Pipeline.mem_restRefs_of main_v24 (by decide) (by decide)),
      kept_main_arg0 m r h c,
      kept_main_arg1 m r h c,
      kept_main_arg2 m r h c⟩)
    (run_main m ρ)

end Cert.KernelIdeal.ScaleValue

end
-- ==== Proof.SharedHost.lean ====
/-
  The two programs share their host computation. Up to the per-atom scale and the constraint loss the kernel's program
  and the reference run the SAME fifty-six host operations on the edge and atom-type arguments (the feature argument is
  not read there), so from memories that agree on those two arguments both leave the same scale vector and the same loss:
  the two folds, opened, are one term. After that the kernel's program reshapes the scale to a column and launches the
  row-scaling kernel, while the reference makes the column by a broadcast, spreads it along the 256 features and
  multiplies: entry `(r, f)` of either first result is the feature entry `(r, f)` times the scale of row `r`, the
  factors in the same order, so no law of the extended reals is needed and the precondition is never opened.
-/
import proofs.«117174_j61048665145612_1_alg».proof.Proof.RefRun
import proofs.«117174_j61048665145612_1_alg».proof.Proof.KernelValue
import Idealize.ShloMosaic.Lib.ValueIdx
import Idealize.ShloMosaic.Lib.Pipeline.Value

noncomputable section

open Idealize.ShloMosaic Idealize.ShloMosaic.TcCoe Idealize.SL.Sem

namespace Cert.Proof.SharedHost

variable {F : FTy → Type} [FloatOps F]
variable (m : (ℓ : Loc Cert.KernelIdeal.nD Cert.KernelIdeal.τ Cert.KernelIdeal.sig) → Buf (Elt F) ℓ)
variable (m' : (ℓ : Loc Cert.ReferenceIdeal.nD Cert.ReferenceIdeal.τ Cert.ReferenceIdeal.sig) → Buf (Elt F) ℓ)

/-- The reference's buffers after its whole @main, from the launch contents `m'`. -/
abbrev refAfter (c : Dev Cert.ReferenceIdeal.nD) (b : Ref Cert.ReferenceIdeal.sig .tc) :=
  StableHlo.after (Cert.ReferenceIdeal.HostRun.ops (F := F)) (StableHlo.launchContents m' c) (Proc.devRef .tc b)

/-! ## What both programs compute on the host -/

-- the sums, lookups and scatter inside the chain are never opened: the two sides are compared operation by operation
attribute [local irreducible] Host.scatterAdd Host.gather Host.reduceAdd in
set_option maxRecDepth 8192 in
set_option maxHeartbeats 1000000 in
/-- The scale vector: the reference's fold at its buffer is the kernel program's at its own, when the edge and
    atom-type arguments agree. -/
theorem scale_eq (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (refAfter m' c Cert.ReferenceIdeal.main_v31 : Cert.ReferenceIdeal.S100000.Idx → Elt F .f32)
      = (Cert.KernelIdeal.Gen.V m c Cert.KernelIdeal.main_v31 : Cert.KernelIdeal.S100000.Idx → Elt F .f32) := by
  dsimp only [refAfter, Cert.KernelIdeal.Gen.V]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil,
    List.append_nil, List.cons_append, List.nil_append]
  after_results_simp
  have h1' : StableHlo.launchContents m' c (Proc.devRef .tc Cert.ReferenceIdeal.main_arg1) = m ((c.tc : Thread Cert.KernelIdeal.nD Cert.KernelIdeal.τ).loc Cert.KernelIdeal.main_arg1) := h1
  have h2' : StableHlo.launchContents m' c (Proc.devRef .tc Cert.ReferenceIdeal.main_arg2) = m ((c.tc : Thread Cert.KernelIdeal.nD Cert.KernelIdeal.τ).loc Cert.KernelIdeal.main_arg2) := h2
  rw [h1', h2']
  rfl

-- the sums, lookups and scatter inside the chain are never opened: the two sides are compared operation by operation
attribute [local irreducible] Host.scatterAdd Host.gather Host.reduceAdd in
set_option maxRecDepth 8192 in
set_option maxHeartbeats 1000000 in
/-- The constraint loss, likewise: the mean violation times the weight is one term of the two arguments. -/
theorem loss_eq (c : Dev Cert.KernelIdeal.nD)
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (refAfter m' c Cert.ReferenceIdeal.main_v24 : Cert.ReferenceIdeal.S_.Idx → Elt F .f32)
      = (Cert.KernelIdeal.Gen.V m c Cert.KernelIdeal.main_v24 : Cert.KernelIdeal.S_.Idx → Elt F .f32) := by
  dsimp only [refAfter, Cert.KernelIdeal.Gen.V]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil,
    List.append_nil, List.cons_append, List.nil_append]
  after_results_simp
  have h1' : StableHlo.launchContents m' c (Proc.devRef .tc Cert.ReferenceIdeal.main_arg1) = m ((c.tc : Thread Cert.KernelIdeal.nD Cert.KernelIdeal.τ).loc Cert.KernelIdeal.main_arg1) := h1
  have h2' : StableHlo.launchContents m' c (Proc.devRef .tc Cert.ReferenceIdeal.main_arg2) = m ((c.tc : Thread Cert.KernelIdeal.nD Cert.KernelIdeal.τ).loc Cert.KernelIdeal.main_arg2) := h2
  rw [h1', h2']
  rfl

/-! ## The tails -/

-- the sums, lookups and scatter inside the chain are never opened: the two sides are compared operation by operation
attribute [local irreducible] Host.scatterAdd Host.gather Host.reduceAdd in
set_option maxRecDepth 8192 in
set_option maxHeartbeats 1000000 in
/-- The column the launch finds is the scale vector reshaped. -/
theorem column_eq (c : Dev Cert.KernelIdeal.nD) :
    (Cert.KernelIdeal.Gen.V m c Cert.KernelIdeal.main_v32 : Cert.KernelIdeal.S100000x1.Idx → Elt F .f32)
      = shapeCast Cert.KernelIdeal.S100000x1 (Cert.KernelIdeal.Gen.V m c Cert.KernelIdeal.main_v31 : Cert.KernelIdeal.S100000.Idx → Elt F .f32)
          Cert.KernelIdeal.Gen.shapeCasts_S100000_S100000x1 := by
  dsimp only [Cert.KernelIdeal.Gen.V]
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, List.flatten_cons, List.flatten_nil,
    List.append_nil, List.cons_append, List.nil_append]
  after_results_simp
  rfl

-- the sums, lookups and scatter inside the chain are never opened: the two sides are compared operation by operation
attribute [local irreducible] Host.scatterAdd Host.gather Host.reduceAdd in
set_option maxRecDepth 8192 in
set_option maxHeartbeats 1000000 in
/-- The reference's first result is the feature argument times the scale made a column and spread along the features. -/
theorem ref_result (c : Dev Cert.ReferenceIdeal.nD) :
    (refAfter m' c Cert.ReferenceIdeal.main_v34 : Cert.ReferenceIdeal.S100000x256.Idx → Elt F .f32)
      = mulf (m' ((c.tc : Thread Cert.ReferenceIdeal.nD Cert.ReferenceIdeal.τ).loc Cert.ReferenceIdeal.main_arg0) : Cert.ReferenceIdeal.S100000x256.Idx → Elt F .f32)
          (broadcastInDim Cert.ReferenceIdeal.S100000x256 ![0, 1] Cert.ReferenceIdeal.Gen.bcast_S100000x1_S100000x256_0_1
            (broadcastInDim Cert.ReferenceIdeal.S100000x1 ![0] Cert.ReferenceIdeal.Gen.bcast_S100000_S100000x1_0
              (refAfter m' c Cert.ReferenceIdeal.main_v31 : Cert.ReferenceIdeal.S100000.Idx → Elt F .f32))) := by
  dsimp only [refAfter]
  after_results_simp

set_option maxRecDepth 8192 in
/-- The reference writes none of its arguments. -/
theorem ref_arg0 (c : Dev Cert.ReferenceIdeal.nD) : refAfter m' c Cert.ReferenceIdeal.main_arg0 = m' ((c.tc : Thread Cert.ReferenceIdeal.nD Cert.ReferenceIdeal.τ).loc Cert.ReferenceIdeal.main_arg0) := by
  dsimp only [refAfter]
  after_results_simp <;> rfl
set_option maxRecDepth 8192 in
theorem ref_arg1 (c : Dev Cert.ReferenceIdeal.nD) : refAfter m' c Cert.ReferenceIdeal.main_arg1 = m' ((c.tc : Thread Cert.ReferenceIdeal.nD Cert.ReferenceIdeal.τ).loc Cert.ReferenceIdeal.main_arg1) := by
  dsimp only [refAfter]
  after_results_simp <;> rfl
set_option maxRecDepth 8192 in
theorem ref_arg2 (c : Dev Cert.ReferenceIdeal.nD) : refAfter m' c Cert.ReferenceIdeal.main_arg2 = m' ((c.tc : Thread Cert.ReferenceIdeal.nD Cert.ReferenceIdeal.τ).loc Cert.ReferenceIdeal.main_arg2) := by
  dsimp only [refAfter]
  after_results_simp <;> rfl

/-! ## The first results are one function -/

/-- A scale vector made a column by a broadcast and spread along the features, read at `(r, f)`, and the same vector
    reshaped to a column, read at `(r, 0)`: both are the vector's entry `r`. -/
theorem spread_eq_column (x : Cert.KernelIdeal.S100000.Idx → Elt F .f32) (i : Cert.KernelIdeal.S100000x256.Idx) :
    broadcastInDim Cert.ReferenceIdeal.S100000x256 ![0, 1] Cert.ReferenceIdeal.Gen.bcast_S100000x1_S100000x256_0_1
        (broadcastInDim Cert.ReferenceIdeal.S100000x1 ![0] Cert.ReferenceIdeal.Gen.bcast_S100000_S100000x1_0 x) i
      = shapeCast Cert.KernelIdeal.S100000x1 x Cert.KernelIdeal.Gen.shapeCasts_S100000_S100000x1 (Cert.KernelIdeal.ScaleValue.rowOf i) := by
  have hi : (i 0).val < 100000 := (i 0).isLt
  let k : Cert.KernelIdeal.S100000.Idx := fun a => match a with | ⟨0, _⟩ => ⟨(i 0).val, by show (i 0).val < 100000; omega⟩
  refine (broadcastInDim_apply _ _ _ i (Cert.KernelIdeal.ScaleValue.rowOf i) (fun a => ?_)).trans
    ((broadcastInDim_apply _ _ x (Cert.KernelIdeal.ScaleValue.rowOf i) k (fun a => ?_)).trans
      (shapeCast_apply x _ (Cert.KernelIdeal.ScaleValue.rowOf i) k ?_).symm)
  · match a with
    | ⟨0, _⟩ => show (i 0).val = (if (100000 : Nat) = 1 then 0 else (i 0).val); rw [if_neg (by decide)]
    | ⟨1, _⟩ => show 0 = (if (1 : Nat) = 1 then 0 else (i 1).val); rw [if_pos rfl]
  · match a with
    | ⟨0, _⟩ => show (i 0).val = (if (100000 : Nat) = 1 then 0 else (i 0).val); rw [if_neg (by decide)]
  · rw [Shape.rowMajor_val_one, Shape.rowMajor_val_two]
    show (i 0).val = (i 0).val * 1 + 0
    omega

/-- THE FIRST RESULTS: from memories that agree on the three arguments, the reference's product is the array the kernel
    program's launch leaves — the feature entry times its row's scale, at every index. -/
theorem result_eq (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    (refAfter m' c Cert.ReferenceIdeal.main_v34 : Cert.ReferenceIdeal.S100000x256.Idx → Elt F .f32)
      = Cert.KernelIdeal.ScaleValue.scaled (m ((c.tc : Thread Cert.KernelIdeal.nD Cert.KernelIdeal.τ).loc Cert.KernelIdeal.main_arg0)) (Cert.KernelIdeal.Gen.V m c Cert.KernelIdeal.main_v32) := by
  rw [ref_result m' c, scale_eq m m' c h1 h2, column_eq m c, h0]
  generalize (Cert.KernelIdeal.Gen.V m c Cert.KernelIdeal.main_v31 : Cert.KernelIdeal.S100000.Idx → Elt F .f32) = x
  funext i
  exact congrArg (FloatOps.mulf _) (spread_eq_column x i)

end Cert.Proof.SharedHost

end
-- ==== Proof.lean ====
/-
  The certificate of the valence-constraint rescaling. Both programs compute, on the host and by the same operations, a
  per-atom scale from the edge list and the atom types (the bond count by a scatter-add, the allowed valence by a table
  lookup, the violation, and `1 - violation / 10` where it is positive) together with the constraint loss; they differ only
  in how the feature array is then multiplied by the scale, row by row: the kernel's program launches a kernel over 20
  blocks of 5000 rows, the reference broadcasts the scale and multiplies on the host. At the ideal instance both first
  results are `features (r, f) * scale r` with the factors in the same order, and both second results are the same
  host term, so the equivalence needs no algebraic law and no finiteness.
  The three frames: the two kernel programs' are the generated frame certificates; the reference's is its run
  (Proof/RefRun.lean) read at the arguments. The idealization rewrote nothing, so `preserves` is `True`.
-/
import proofs.«117174_j61048665145612_1_alg».proof.Defs
import proofs.«117174_j61048665145612_1_alg».proof.Proof.Gen.Kernel
import proofs.«117174_j61048665145612_1_alg».proof.Proof.Gen.Kernel.Skeleton
import proofs.«117174_j61048665145612_1_alg».proof.Proof.Gen.Kernel.Launch
import proofs.«117174_j61048665145612_1_alg».proof.Proof.Gen.Kernel.Points
import proofs.«117174_j61048665145612_1_alg».proof.Proof.Gen.Kernel.Frame
import proofs.«117174_j61048665145612_1_alg».proof.Proof.Gen.KernelIdeal
import proofs.«117174_j61048665145612_1_alg».proof.Proof.Gen.KernelIdeal.Skeleton
import proofs.«117174_j61048665145612_1_alg».proof.Proof.Gen.KernelIdeal.Launch
import proofs.«117174_j61048665145612_1_alg».proof.Proof.Gen.KernelIdeal.Points
import proofs.«117174_j61048665145612_1_alg».proof.Proof.Gen.KernelIdeal.Frame
import proofs.«117174_j61048665145612_1_alg».proof.Proof.Gen.ReferenceIdeal
import proofs.«117174_j61048665145612_1_alg».proof.Proof.Gen.Pre_finite_inputs
import proofs.«117174_j61048665145612_1_alg».proof.Proof.RefRun
import proofs.«117174_j61048665145612_1_alg».proof.Proof.KernelValue
import proofs.«117174_j61048665145612_1_alg».proof.Proof.SharedHost
import Idealize.ShloMosaic.Adequacy
import Idealize.ShloMosaic.Init

noncomputable section

namespace Cert.Proof

open Idealize.ShloMosaic Idealize.ShloMosaic.TcCoe Idealize.SL.Sem

/-- The word-level kernel program runs and keeps its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations none of which writes an argument. -/
theorem frame_referenceIdeal : Cert.frame_ReferenceIdeal := fun m ρ _ =>
  (θ_run Cert.ReferenceIdeal.defs _ _).mono
    (fun _ h c => ⟨(h c Cert.ReferenceIdeal.main_arg0).trans (SharedHost.ref_arg0 m c),
      (h c Cert.ReferenceIdeal.main_arg1).trans (SharedHost.ref_arg1 m c),
      (h c Cert.ReferenceIdeal.main_arg2).trans (SharedHost.ref_arg2 m c)⟩)
    (Cert.ReferenceIdeal.HostRun.run_main (F := Ideal) m ρ)

/-- From memories that agree on the arguments both programs end with the rows of the feature array scaled by the shared
    per-atom scale, and with the shared constraint loss. -/
theorem algebraic : Cert.algebraic_KernelIdeal_ReferenceIdeal := by
  intro m ρ m' ρ' _ hagree
  refine ⟨fun c => Cert.KernelIdeal.ScaleValue.scaled
      (m ((c.tc : Thread Cert.KernelIdeal.nD Cert.KernelIdeal.τ).loc Cert.KernelIdeal.main_arg0))
      (Cert.KernelIdeal.Gen.V m c Cert.KernelIdeal.main_v32),
    fun c => Cert.KernelIdeal.Gen.V m c Cert.KernelIdeal.main_v24,
    Cert.KernelIdeal.ScaleValue.run (F := Ideal) m ρ, ?_⟩
  refine (θ_run Cert.ReferenceIdeal.defs _ _).mono (fun _ h c => ?_)
    (Cert.ReferenceIdeal.HostRun.run_main (F := Ideal) m' ρ')
  obtain ⟨h0, h1, h2⟩ := hagree c
  exact ⟨(h c Cert.ReferenceIdeal.main_v34).trans (SharedHost.result_eq m m' c h0 h1 h2),
    (h c Cert.ReferenceIdeal.main_v24).trans (SharedHost.loss_eq m m' c h1 h2),
    (h c Cert.ReferenceIdeal.main_arg0).trans (SharedHost.ref_arg0 m' c),
    (h c Cert.ReferenceIdeal.main_arg1).trans (SharedHost.ref_arg1 m' c),
    (h c Cert.ReferenceIdeal.main_arg2).trans (SharedHost.ref_arg2 m' c)⟩

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
